-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x512x512 : Shape := ⟨4, ![16, 8, 512, 512]⟩
abbrev S8x512x512 : Shape := ⟨3, ![8, 512, 512]⟩
abbrev S_ : Shape := ⟨0, ![]⟩

class Facts : Prop where
  bcast_S_S16x8x512x512 : S_.BroadcastsInDim S16x8x512x512 (![] : Fin 0 → Fin S16x8x512x512.rank)
  reducesTo_S16x8x512x512_S_d0_1_2_3 : S16x8x512x512.ReducesTo [0, 1, 2, 3] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_

variable [Facts]

def fn {F : FTy → Type} [FloatOps F] (main_arg0 : FVec F S16x8x512x512 .f32) (main_arg1 : FVec F S8x512x512 .f32) : IVec S_ 1 :=
  let main_v0 : FVec F S16x8x512x512 .f32 := Host.absf main_arg0
  let main_cst : FVec F S_ .f32 := constant S_ .f32 0x7F800000#32
  let main_v1 : FVec F S16x8x512x512 .f32 := broadcastInDim S16x8x512x512 ![] bcast_S_S16x8x512x512 main_cst
  let main_v2 : IVec S16x8x512x512 1 := cmpf .olt main_v0 main_v1
  let main_c : IVec S_ 1 := constantI S_ 1 1#1
  let main_v3 : IVec S_ 1 := (fun x v => Host.reduce IntOp.andi x v reducesTo_S16x8x512x512_S_d0_1_2_3 h_S_) main_v2 main_c
  let main_v4 : FVec F S8x512x512 .f32 := Host.absf main_arg1
  let main_cst_0 : FVec F S_ .f32 := constant S_ .f32 0x7F800000#32
  let main_v5 : FVec F S8x512x512 .f32 := broadcastInDim S8x512x512 ![] bcast_S_S8x512x512 main_cst_0
  let main_v6 : IVec S8x512x512 1 := cmpf .olt main_v4 main_v5
  let main_c_1 : IVec S_ 1 := constantI S_ 1 1#1
  let main_v7 : IVec S_ 1 := (fun x v => Host.reduce IntOp.andi x v reducesTo_S8x512x512_S_d0_1_2 h_S_) main_v6 main_c_1
  let main_v8 : IVec S_ 1 := andi main_v3 main_v7
  main_v8
-- ==== Kernel.lean ====
abbrev S16x8x512x512 : Shape := ⟨4, ![16, 8, 512, 512]⟩
abbrev S8x512x512 : Shape := ⟨3, ![8, 512, 512]⟩
abbrev S8x128 : Shape := ⟨2, ![8, 128]⟩
abbrev S16x1x128x512 : Shape := ⟨4, ![16, 1, 128, 512]⟩
abbrev S1x128x512 : Shape := ⟨3, ![1, 128, 512]⟩
abbrev S16x128x512 : Shape := ⟨3, ![16, 128, 512]⟩
abbrev S128x512 : Shape := ⟨2, ![128, 512]⟩
abbrev S16x128 : Shape := ⟨2, ![16, 128]⟩
abbrev S16 : Shape := ⟨1, ![16]⟩
abbrev S1x16 : Shape := ⟨2, ![1, 16]⟩
abbrev S1 : Shape := ⟨1, ![1]⟩
abbrev S1x1 : Shape := ⟨2, ![1, 1]⟩
abbrev S128 : Shape := ⟨1, ![128]⟩
abbrev S1x128 : Shape := ⟨2, ![1, 128]⟩
abbrev S_ : Shape := ⟨0, ![]⟩

abbrev nBuf : Space → Nat
  | .hbm => 15
  | .vmem => 6
  | .smem => 0
  | _ => 0

abbrev bufTy : (tb : Table) → Fin (tcTables nBuf tb) → BufTy
  | .hbm, ⟨0, _⟩ => ⟨S16x8x512x512, .f32⟩
  | .hbm, ⟨1, _⟩ => ⟨S8x512x512, .f32⟩
  | .hbm, ⟨2, _⟩ => ⟨S8x128, .f32⟩
  | .hbm, ⟨3, _⟩ => ⟨S8x128, .f32⟩
  | .hbm, ⟨4, _⟩ => ⟨S1x1, .f32⟩
  | .hbm, ⟨5, _⟩ => ⟨S_, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S16x1x128x512, .f32⟩
  | .local _ .vmem, ⟨1, _⟩ => ⟨S16x1x128x512, .f32⟩
  | .local _ .vmem, ⟨2, _⟩ => ⟨S1x128x512, .f32⟩
  | .local _ .vmem, ⟨3, _⟩ => ⟨S1x128x512, .f32⟩
  | .local _ .vmem, ⟨4, _⟩ => ⟨S8x128, .f32⟩
  | .local _ .vmem, ⟨5, _⟩ => ⟨S8x128, .f32⟩
  | _, _ => ⟨S16x8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  inb_S8x128_S8x128_0_0 : ∀ a, (![0, 0] : Fin 2 → Nat) a + S8x128.size a ≤ S8x128.size a
  h_S8x128 : 0 < S8x128.numel
  inb_S16x1x128x512_S16x1x128x512_0_0_0_0 : ∀ a, (![0, 0, 0, 0] : Fin 4 → Nat) a + S16x1x128x512.size a ≤ S16x1x128x512.size a
  h_S16x1x128x512 : 0 < S16x1x128x512.numel
  shapeCasts_S16x1x128x512_S16x128x512 : S16x1x128x512.ShapeCasts S16x128x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  shapeCasts_S128x512_S1x128x512 : S128x512.ShapeCasts S1x128x512
  broadcasts_S1x128x512_S16x128x512 : S1x128x512.Broadcasts S16x128x512
  reduces_S16x128x512_S16x128 : S16x128x512.Reduces [2] S16x128
  reduces_S16x128_S16 : S16x128.Reduces [1] S16
  shapeCasts_S16_S1x16 : S16.ShapeCasts S1x16
  reduces_S1x16_S1 : S1x16.Reduces [1] S1
  shapeCasts_S1_S1x1 : S1.ShapeCasts S1x1
  inpos_S1x1_p0_0 : ∀ a, (![0, 0] : Fin 2 → Nat) a < S1x1.size a
  reduces_S16x128x512_S128x512 : S16x128x512.Reduces [0] S128x512
  reduces_S128x512_S128 : S128x512.Reduces [1] S128
  shapeCasts_S128_S1x128 : S128.ShapeCasts S1x128
  reduces_S1x128_S1 : S1x128.Reduces [1] S1
  shapeCasts_S8x128_S8x128 : S8x128.ShapeCasts S8x128
  slices_S8x128_S1x1_0_0 : S8x128.Slices ![0, 0] S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1x128x512.size a ≤ S16x8x512x512.size a
  hwx0_0 : ∀ i : grid0.Coords, EltTy.bits .f32 = 32 ∨ (Rect.block (s := S16x8x512x512) S16x1x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S8x512x512.size a
  hwx0_1 : ∀ i : grid0.Coords, EltTy.bits .f32 = 32 ∨ (Rect.block (s := S8x512x512) S1x128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)

variable [Facts₀]

abbrev win0_0 : Pipeline.Window sig grid0 :=
  Pipeline.Window.ofSpec (Memref.whole main_arg0) S16x1x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x128.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x8x512x512 : Shape := ⟨4, ![16, 8, 512, 512]⟩
abbrev S8x512x512 : Shape := ⟨3, ![8, 512, 512]⟩
abbrev S1x8x512x512 : Shape := ⟨4, ![1, 8, 512, 512]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S16x8x512x512, .f32⟩
  | .hbm, ⟨1, _⟩ => ⟨S8x512x512, .f32⟩
  | .hbm, ⟨2, _⟩ => ⟨S1x8x512x512, .f32⟩
  | .hbm, ⟨3, _⟩ => ⟨S16x8x512x512, .f32⟩
  | .hbm, ⟨4, _⟩ => ⟨S16x8x512x512, .f32⟩
  | .hbm, ⟨5, _⟩ => ⟨S16x8x512x512, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16x8x512x512, .f32⟩
  | .hbm, ⟨11, _⟩ => ⟨S_, .f32⟩
  | .hbm, ⟨12, _⟩ => ⟨S8x512x512, .f32⟩
  | .hbm, ⟨13, _⟩ => ⟨S_, .f32⟩
  | .hbm, ⟨14, _⟩ => ⟨S8x512x512, .f32⟩
  | .hbm, ⟨15, _⟩ => ⟨S8x512x512, .f32⟩
  | .hbm, ⟨16, _⟩ => ⟨S8x512x512, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | _, _ => ⟨S16x8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S8x512x512_S1x8x512x512_1_2_3 : S8x512x512.BroadcastsInDim S1x8x512x512 (![1, 2, 3] : Fin 3 → Fin S1x8x512x512.rank)
  bcast_S1x8x512x512_S16x8x512x512_0_1_2_3 : S1x8x512x512.BroadcastsInDim S16x8x512x512 (![0, 1, 2, 3] : Fin 4 → Fin S16x8x512x512.rank)
  reducesTo_S16x8x512x512_S_d0_1_2_3 : S16x8x512x512.ReducesTo [0, 1, 2, 3] S_
  h_S_ : 0 < S_.numel
  reducesTo_S16x8x512x512_S8x512x512_d0 : S16x8x512x512.ReducesTo [0] S8x512x512
  bcast_S_S8x512x512 : S_.BroadcastsInDim S8x512x512 (![] : Fin 0 → Fin S8x512x512.rank)
  reducesTo_S8x512x512_S_d0_1_2 : S8x512x512.ReducesTo [0, 1, 2] S_

variable [Facts₀]

class Facts : Prop extends Facts₀ where

variable [Facts]
-- ==== Proof.Consts.lean ====
/-
  The two float constants in which the programs differ, as extended reals.

  The kernel scales the sum of sixteen absolute values by the word 0x3D800000, the reference divides it by the word
  0x41800000.  The first denotes 2^(-4) = 1/16 exactly, the second 16, and on the extended reals dividing by a nonzero
  real is multiplying by its inverse (at both infinities too), so the two operations are one function.
-/
import Idealize.ShloMosaic.PureOps.Ideal

noncomputable section

namespace Cert.Crps.Consts

open Idealize.ShloMosaic

/-- The word 0x41800000 denotes the real 16. -/
theorem ofBits_sixteen : Ideal.ofBits .f32 0x41800000#32 = ((16 : ℝ) : EReal) := by
  simp [Ideal.ofBits, Ideal.ieee, -EReal.coe_mul]; norm_num

/-- The word 0x3D800000 denotes the real 1/16: sign 0, exponent field 123, fraction 0, so 2^23 · 2^(123 − 127 − 23). -/
theorem ofBits_sixteenth : Ideal.ofBits .f32 0x3D800000#32 = ((1 / 16 : ℝ) : EReal) := by
  simp [Ideal.ofBits, Ideal.ieee, -EReal.coe_mul]; norm_num

/-- Dividing an extended real by the word 16 is multiplying it by the word 1/16. -/
theorem div_sixteen (x : EReal) :
    Ideal.div x (Ideal.ofBits .f32 0x41800000#32) = x * Ideal.ofBits .f32 0x3D800000#32 := by
  rw [ofBits_sixteen, ofBits_sixteenth]
  exact Ideal.div_coe (by norm_num : (16 : ℝ) ≠ 0) x

end Cert.Crps.Consts

end
-- ==== Proof.LibIdxSum.lean ====
/-
  A sum over an array's index set is the iterated sum over its coordinates.

  An index of a rank-3 array of extents [n0, n1, n2] is the triple of its coordinates, and of a rank-4 array the
  quadruple; so the index set is the product of the coordinate ranges, and a sum over it, in any commutative additive
  monoid, is the sum over the first coordinate of the sum over the second, and so on.  (Rank 2 is the library's
  `sum_idx2`; these are the same statement one and two ranks up, over the same coordinate constructors `ix3`, `ix4`.)
-/
import Idealize.ShloMosaic.Lib.ValueIdx

noncomputable section

open scoped BigOperators

namespace Cert.LibIdxSum

open Idealize.ShloMosaic Idealize.ShloMosaic.ValueIdx

variable {M : Type*} [AddCommMonoid M]

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

end Cert.LibIdxSum

end
-- ==== Proof.LibBlockSum.lean ====
/-
  A sum over n · b rows, taken block by block.

  Let `N = n · b` and let `f` assign to each of the rows `0, …, N − 1` an element of a commutative additive monoid
  (the extended reals are one; nothing finite is asked of the values).  Cut the rows into `n` consecutive blocks of
  `b`: block `t` holds the rows `b·t, …, b·t + b − 1`.  Then

    • the sum over all rows is the sum over the blocks of each block's sum;
    • the partial sums `P m = Σ_{k < m} f k` satisfy `P 0 = 0`, `P (b·(t+1)) = P (b·t) + (block t's sum)` and
      `P (b·n) = Σ_k f k`;
    • so a running total that starts at zero and adds one block's sum at each of the steps `t = 0, …, n − 1` holds
      `P (b·t)` before step `t` and the whole sum after the last step.

  Everything is stated over `Fin N` with the equation `n · b = N` as a hypothesis, so that the rows may be counted by a
  literal (`N = 50000` with `n = 25`, `b = 2000`) without a change of index type.
-/
import Mathlib.Algebra.BigOperators.Fin
import Mathlib.Algebra.BigOperators.Group.Finset.Basic
import Mathlib.Data.Fintype.Basic
import Mathlib.Data.EReal.Basic
import Mathlib.Tactic.Ring
import Mathlib.Tactic.NormNum

namespace Cert.LibBlockSum

open scoped BigOperators

variable {M : Type*} [AddCommMonoid M] {N : ℕ}

/-! ## Partial sums over the rows below a bound -/

/-- The sum of `f` over the rows whose number is below `m`. -/
def partialSum (f : Fin N → M) (m : ℕ) : M :=
  ∑ k ∈ Finset.univ.filter (fun k : Fin N => k.val < m), f k

/-- No row lies below `0`: the empty partial sum is zero. -/
theorem partialSum_zero (f : Fin N → M) : partialSum f 0 = 0 := by
  unfold partialSum
  rw [Finset.filter_false_of_mem (fun k _ => Nat.not_lt_zero k.val), Finset.sum_empty]

/-- Raising the bound from `m` to `m + 1` adds row `m`. -/
theorem partialSum_succ (f : Fin N → M) {m : ℕ} (h : m < N) :
    partialSum f (m + 1) = partialSum f m + f ⟨m, h⟩ := by
  unfold partialSum
  have hins : Finset.univ.filter (fun k : Fin N => k.val < m + 1)
      = insert (⟨m, h⟩ : Fin N) (Finset.univ.filter (fun k : Fin N => k.val < m)) := by
    ext k
    simp only [Finset.mem_filter, Finset.mem_univ, true_and, Finset.mem_insert, Fin.ext_iff]
    omega
  have hnot : (⟨m, h⟩ : Fin N) ∉ Finset.univ.filter (fun k : Fin N => k.val < m) := by
    simp only [Finset.mem_filter, Finset.mem_univ, true_and]
    omega
  rw [hins, Finset.sum_insert hnot, add_comm]

/-- Raising the bound from `m` to `m + b` adds the `b` rows `m, …, m + b − 1`. -/
theorem partialSum_add (f : Fin N → M) (m b : ℕ) (h : m + b ≤ N) :
    partialSum f (m + b) = partialSum f m + ∑ r : Fin b, f ⟨m + r.val, lt_of_lt_of_le (by omega) h⟩ := by
  induction b with
  | zero => simp
  | succ b ih =>
    have hb : m + b ≤ N := by omega
    have hlt : m + b < N := by omega
    show partialSum f (m + b + 1) = _
    rw [partialSum_succ f hlt, ih hb, Fin.sum_univ_castSucc, add_assoc]
    rfl

/-- Once the bound has passed the last row, the partial sum is the whole sum. -/
theorem partialSum_of_le (f : Fin N → M) {m : ℕ} (h : N ≤ m) : partialSum f m = ∑ k, f k := by
  unfold partialSum
  rw [Finset.filter_true_of_mem (fun k _ => lt_of_lt_of_le k.isLt h)]

/-- The partial sum below `N` is the whole sum. -/
theorem partialSum_self (f : Fin N → M) : partialSum f N = ∑ k, f k := partialSum_of_le f le_rfl

/-! ## Blocks -/

variable {n b : ℕ}

/-- Row `r` of block `t` is a row: `b·t + r < b·(t+1) ≤ b·n = N`. -/
theorem block_lt (hN : n * b = N) {t r : ℕ} (ht : t < n) (hr : r < b) : b * t + r < N := by
  calc b * t + r < b * t + b := by omega
    _ = b * (t + 1) := by ring
    _ ≤ b * n := Nat.mul_le_mul_left b ht
    _ = N := by rw [Nat.mul_comm, hN]

/-- The first `t` blocks are rows: `b·t ≤ N` for `t ≤ n`. -/
theorem blocks_le (hN : n * b = N) {t : ℕ} (ht : t ≤ n) : b * t ≤ N := by
  calc b * t ≤ b * n := Nat.mul_le_mul_left b ht
    _ = N := by rw [Nat.mul_comm, hN]

/-- The sum of `f` over block `t`: the rows `b·t, …, b·t + b − 1`. -/
def blockSum (hN : n * b = N) (f : Fin N → M) (t : Fin n) : M :=
  ∑ r : Fin b, f ⟨b * t.val + r.val, block_lt hN t.isLt r.isLt⟩

/-- `blockSum` written out. -/
theorem blockSum_eq (hN : n * b = N) (f : Fin N → M) (t : Fin n) :
    blockSum hN f t = ∑ r : Fin b, f ⟨b * t.val + r.val, block_lt hN t.isLt r.isLt⟩ := rfl

/-- Passing from the first `t` blocks to the first `t + 1` adds block `t`'s sum. -/
theorem partialSum_block_succ (hN : n * b = N) (f : Fin N → M) (t : Fin n) :
    partialSum f (b * (t.val + 1)) = partialSum f (b * t.val) + blockSum hN f t := by
  have h : b * t.val + b ≤ N := by
    have := blocks_le hN (t := t.val + 1) t.isLt
    rwa [Nat.mul_succ] at this
  rw [show b * (t.val + 1) = b * t.val + b from Nat.mul_succ b t.val, partialSum_add f (b * t.val) b h]
  rfl

/-- The partial sum below the first `t` blocks is the sum of those blocks' sums. -/
theorem partialSum_blocks (hN : n * b = N) (f : Fin N → M) {t : ℕ} (ht : t ≤ n) :
    partialSum f (b * t) = ∑ s : Fin t, blockSum hN f ⟨s.val, lt_of_lt_of_le s.isLt ht⟩ := by
  induction t with
  | zero => rw [Nat.mul_zero, partialSum_zero, Fin.sum_univ_zero]
  | succ t ih =>
    have htn : t < n := ht
    rw [partialSum_block_succ hN f ⟨t, htn⟩, ih (Nat.le_of_lt htn), Fin.sum_univ_castSucc]
    rfl

/-- **The sum over all rows is the sum over the blocks of each block's sum.** -/
theorem sum_blocks (hN : n * b = N) (f : Fin N → M) : ∑ k, f k = ∑ t : Fin n, blockSum hN f t := by
  rw [← partialSum_of_le f (le_of_eq (by rw [Nat.mul_comm, hN] : N = b * n)), partialSum_blocks hN f le_rfl]

/-- The same with each block's sum written out:
    `Σ_k f k = Σ_{t < n} Σ_{r < b} f (b·t + r)`. -/
theorem sum_blocks' (hN : n * b = N) (f : Fin N → M) :
    ∑ k, f k = ∑ t : Fin n, ∑ r : Fin b, f ⟨b * t.val + r.val, block_lt hN t.isLt r.isLt⟩ :=
  sum_blocks hN f

/-! ## The running total, step by step -/

/-- The running total after `t` steps: zero at the start, and step `t` adds block `t`'s sum (a step past the last block
    adds nothing). -/
def blockAcc (hN : n * b = N) (f : Fin N → M) : ℕ → M
  | 0 => 0
  | t + 1 => blockAcc hN f t + (if h : t < n then blockSum hN f ⟨t, h⟩ else 0)

/-- Before the first step the running total is zero. -/
@[simp] theorem blockAcc_zero (hN : n * b = N) (f : Fin N → M) : blockAcc hN f 0 = 0 := rfl

/-- Step `t` adds block `t`'s sum. -/
theorem blockAcc_succ (hN : n * b = N) (f : Fin N → M) {t : ℕ} (h : t < n) :
    blockAcc hN f (t + 1) = blockAcc hN f t + blockSum hN f ⟨t, h⟩ := by
  show blockAcc hN f t + (if h : t < n then blockSum hN f ⟨t, h⟩ else 0) = _
  rw [dif_pos h]

/-- Step `t`, with the block's sum written out. -/
theorem blockAcc_succ' (hN : n * b = N) (f : Fin N → M) {t : ℕ} (h : t < n) :
    blockAcc hN f (t + 1)
      = blockAcc hN f t + ∑ r : Fin b, f ⟨b * t + r.val, block_lt hN h r.isLt⟩ :=
  blockAcc_succ hN f h

/-- After `t ≤ n` steps the running total is the partial sum over the rows below `b·t`. -/
theorem blockAcc_eq_partialSum (hN : n * b = N) (f : Fin N → M) {t : ℕ} (ht : t ≤ n) :
    blockAcc hN f t = partialSum f (b * t) := by
  induction t with
  | zero => rw [Nat.mul_zero, partialSum_zero, blockAcc_zero]
  | succ t ih =>
    have htn : t < n := ht
    rw [blockAcc_succ hN f htn, ih (Nat.le_of_lt htn), partialSum_block_succ hN f ⟨t, htn⟩]

/-- After `t ≤ n` steps the running total is the sum over the rows `k` with `k < b·t`, as a filtered sum. -/
theorem blockAcc_eq_filter (hN : n * b = N) (f : Fin N → M) {t : ℕ} (ht : t ≤ n) :
    blockAcc hN f t = ∑ k ∈ Finset.univ.filter (fun k : Fin N => k.val < b * t), f k :=
  blockAcc_eq_partialSum hN f ht

/-- **After the last step the running total is the sum over all rows.** -/
theorem blockAcc_last (hN : n * b = N) (f : Fin N → M) : blockAcc hN f n = ∑ k, f k := by
  rw [blockAcc_eq_partialSum hN f le_rfl]
  exact partialSum_of_le f (le_of_eq (by rw [Nat.mul_comm, hN]))

/-! ## 50000 rows in 25 blocks of 2000 -/

/-- `25 · 2000 = 50000`. -/
theorem rows_50000 : 25 * 2000 = 50000 := by norm_num

/-- Row `r` of block `t` among 50000 rows in 25 blocks of 2000. -/
theorem block_lt_50000 {t r : ℕ} (ht : t < 25) (hr : r < 2000) : 2000 * t + r < 50000 := by omega

/-- The sum over 50000 rows is the sum over the 25 blocks of the sums over each block's 2000 rows. -/
theorem sum_blocks_50000 (f : Fin 50000 → M) :
    ∑ k, f k = ∑ t : Fin 25, ∑ r : Fin 2000, f ⟨2000 * t.val + r.val, block_lt_50000 t.isLt r.isLt⟩ :=
  sum_blocks' rows_50000 f

/-- The running total over 50000 rows in 25 blocks of 2000. -/
def acc50000 (f : Fin 50000 → M) (t : ℕ) : M := blockAcc rows_50000 f t

/-- It starts at zero. -/
@[simp] theorem acc50000_zero (f : Fin 50000 → M) : acc50000 f 0 = 0 := rfl

/-- Step `t < 25` adds the sum over the rows `2000·t, …, 2000·t + 1999`. -/
theorem acc50000_succ (f : Fin 50000 → M) {t : ℕ} (h : t < 25) :
    acc50000 f (t + 1) = acc50000 f t + ∑ r : Fin 2000, f ⟨2000 * t + r.val, block_lt_50000 h r.isLt⟩ :=
  blockAcc_succ' rows_50000 f h

/-- After `t ≤ 25` steps it is the sum over the rows below `2000·t`. -/
theorem acc50000_eq_filter (f : Fin 50000 → M) {t : ℕ} (ht : t ≤ 25) :
    acc50000 f t = ∑ k ∈ Finset.univ.filter (fun k : Fin 50000 => k.val < 2000 * t), f k :=
  blockAcc_eq_filter rows_50000 f ht

/-- After the 25th step it is the sum over all 50000 rows. -/
theorem acc50000_last (f : Fin 50000 → M) : acc50000 f 25 = ∑ k, f k :=
  blockAcc_last rows_50000 f

/-- The extended reals are such a monoid: the statements above hold of sums of extended reals as they stand. -/
example (f : Fin 50000 → EReal) : acc50000 f 25 = ∑ k, f k := acc50000_last f

end Cert.LibBlockSum
-- ==== Proof.Sums.lean ====
/-
  The cut of the (batch, row) plane into the grid's blocks.

  The grid has 32 points; point t handles batch entry t / 4 and the 128 rows
  128·(t mod 4), …, 128·(t mod 4) + 127 of the 512.  Every (batch, row) pair lies in exactly one point's block, so a
  sum over all 8 · 512 pairs is the sum over the 32 points of the sums over each point's 128 rows.  All of it holds in
  any commutative additive monoid: nothing finite is asked of the summands.
-/
import Idealize.ShloMosaic.Lib.ValueIdx
import proofs.«137160_j14645838479695_1_alg».proof.Proof.LibIdxSum
import proofs.«137160_j14645838479695_1_alg».proof.Proof.LibBlockSum

noncomputable section

open scoped BigOperators

namespace Cert.Crps.Sums

open Idealize.ShloMosaic Idealize.ShloMosaic.ValueIdx

variable {M : Type*} [AddCommMonoid M]

/-! ## The grid's blocks -/

/-- The batch entry grid point `t` handles: `t / 4`. -/
def gridBatch (t : Fin 32) : Fin 8 := ⟨t.val / 4, by have := t.isLt; omega⟩

/-- Row `r` of the 128 rows grid point `t` handles: `128 · (t mod 4) + r`. -/
def gridRow (t : Fin 32) (r : Fin 128) : Fin 512 := ⟨128 * (t.val % 4) + r.val, by have := r.isLt; omega⟩

/-- **Every (batch, row) pair lies in exactly one grid point's block**: a sum over the 8 · 512 pairs is the sum over the
    32 points of the sums over each point's 128 rows. -/
theorem sum_grid (g : Fin 8 → Fin 512 → M) :
    ∑ t : Fin 32, ∑ r : Fin 128, g (gridBatch t) (gridRow t r) = ∑ b : Fin 8, ∑ h : Fin 512, g b h := by
  -- the 32 points are 8 batch entries times 4 row blocks
  rw [Cert.LibBlockSum.sum_blocks' (show 8 * 4 = 32 from rfl) (fun t : Fin 32 => ∑ r : Fin 128, g (gridBatch t) (gridRow t r))]
  refine Finset.sum_congr rfl fun b _ => ?_
  -- the 512 rows are 4 blocks of 128
  rw [Cert.LibBlockSum.sum_blocks' (show 4 * 128 = 512 from rfl) (fun h : Fin 512 => g b h)]
  refine Finset.sum_congr rfl fun q _ => ?_
  refine Finset.sum_congr rfl fun r _ => ?_
  have hb := b.isLt; have hq := q.isLt; have hr := r.isLt
  have e1 : gridBatch ⟨4 * b.val + q.val, Cert.LibBlockSum.block_lt (show 8 * 4 = 32 from rfl) b.isLt q.isLt⟩ = b :=
    Fin.ext (by show (4 * b.val + q.val) / 4 = b.val; omega)
  have e2 : gridRow ⟨4 * b.val + q.val, Cert.LibBlockSum.block_lt (show 8 * 4 = 32 from rfl) b.isLt q.isLt⟩ r
      = ⟨128 * q.val + r.val, Cert.LibBlockSum.block_lt (show 4 * 128 = 512 from rfl) q.isLt r.isLt⟩ :=
    Fin.ext (by show 128 * ((4 * b.val + q.val) % 4) + r.val = 128 * q.val + r.val; omega)
  rw [e1, e2]

/-- The same for a summand with a leading coordinate `m` and a trailing coordinate `w` summed inside each block, as the
    kernel sums them: the sum over the points of the block sums is the sum over all four coordinates in array order. -/
theorem sum_grid4 {A W : Nat} (f : Fin A → Fin 8 → Fin 512 → Fin W → M) :
    ∑ t : Fin 32, ∑ m : Fin A, ∑ r : Fin 128, ∑ w : Fin W, f m (gridBatch t) (gridRow t r) w
      = ∑ m : Fin A, ∑ b : Fin 8, ∑ h : Fin 512, ∑ w : Fin W, f m b h w := by
  rw [Finset.sum_comm]
  refine Finset.sum_congr rfl fun m _ => ?_
  exact sum_grid (fun b h => ∑ w : Fin W, f m b h w)

/-- The same without the leading coordinate. -/
theorem sum_grid3 {W : Nat} (g : Fin 8 → Fin 512 → Fin W → M) :
    ∑ t : Fin 32, ∑ r : Fin 128, ∑ w : Fin W, g (gridBatch t) (gridRow t r) w
      = ∑ b : Fin 8, ∑ h : Fin 512, ∑ w : Fin W, g b h w :=
  sum_grid (fun b h => ∑ w : Fin W, g b h w)

end Cert.Crps.Sums

end
-- ==== Proof.Spec.lean ====
/-
  What both programs compute, as one function of the two argument arrays.

  Write p for the predictions, an array [16, 8, 512, 512] of extended reals indexed (m, b, h, w), and y for the targets,
  [8, 512, 512] indexed (b, h, w).  Put

      S₁ = Σ_{m,b,h,w} |p(m,b,h,w) − y(b,h,w)|            (the absolute errors, summed)
      S₂ = Σ_{b,h,w} ( (Σ_m |p(m,b,h,w)|) · c )²          (the squared ensemble mean of |p|, summed; c = 1/16)

  The result is  S₁ / 2²⁵ − (S₂ / 2²¹) / 512,  a scalar.  The kernel reaches S₁ and S₂ as running totals over the 32
  grid points: point t adds the part of each sum that belongs to batch entry t / 4 and rows 128·(t mod 4) … + 127.
  Those parts are `blockAbsDiff` and `blockMeanAbsSq`; that they add up to S₁ and S₂ is the cut of the (b, h) plane
  into the grid's blocks.  Absolute value on the extended reals is `max x (−x)`; the three divisors stay as the float
  words both programs spell, and are never evaluated.
-/
import Idealize.ShloMosaic.PureOps.Ideal
import Idealize.ShloMosaic.Lib.ValueIdx
import proofs.«137160_j14645838479695_1_alg».proof.Proof.Sums

noncomputable section

open scoped BigOperators

namespace Cert.Crps.Spec

open Idealize.ShloMosaic Idealize.ShloMosaic.ValueIdx Cert.Crps.Sums

/-- The predictions' index set, `[16, 8, 512, 512]`. -/
abbrev PIdx : Type := (⟨4, ![16, 8, 512, 512]⟩ : Shape).Idx
/-- The targets' index set, `[8, 512, 512]`. -/
abbrev YIdx : Type := (⟨3, ![8, 512, 512]⟩ : Shape).Idx

/-- Absolute value on the extended reals. -/
def eabs (x : EReal) : EReal := max x (-x)

/-- `S₁`: the absolute errors summed over all four coordinates. -/
def absDiffSum (p : PIdx → EReal) (y : YIdx → EReal) : EReal :=
  ∑ m : Fin 16, ∑ b : Fin 8, ∑ h : Fin 512, ∑ w : Fin 512, eabs (p (ix4 m b h w) - y (ix3 b h w))

/-- The ensemble sum of `|p|` at one position, scaled by `c`. -/
def meanAbs (p : PIdx → EReal) (c : EReal) (b : Fin 8) (h : Fin 512) (w : Fin 512) : EReal :=
  (∑ m : Fin 16, eabs (p (ix4 m b h w))) * c

/-- `S₂`: the squared scaled ensemble sum of `|p|`, summed over the positions. -/
def meanAbsSqSum (p : PIdx → EReal) (c : EReal) : EReal :=
  ∑ b : Fin 8, ∑ h : Fin 512, ∑ w : Fin 512, meanAbs p c b h w * meanAbs p c b h w

/-- Grid point `t`'s part of `S₁`: ensemble members, then the point's 128 rows, then the 512 columns. -/
def blockAbsDiff (p : PIdx → EReal) (y : YIdx → EReal) (t : Fin 32) : EReal :=
  ∑ m : Fin 16, ∑ r : Fin 128, ∑ w : Fin 512,
    eabs (p (ix4 m (gridBatch t) (gridRow t r) w) - y (ix3 (gridBatch t) (gridRow t r) w))

/-- Grid point `t`'s part of `S₂`. -/
def blockMeanAbsSq (p : PIdx → EReal) (c : EReal) (t : Fin 32) : EReal :=
  ∑ r : Fin 128, ∑ w : Fin 512, meanAbs p c (gridBatch t) (gridRow t r) w * meanAbs p c (gridBatch t) (gridRow t r) w

/-- The points' parts of `S₁` add up to `S₁`. -/
theorem sum_blockAbsDiff (p : PIdx → EReal) (y : YIdx → EReal) : ∑ t : Fin 32, blockAbsDiff p y t = absDiffSum p y :=
  sum_grid4 (fun m b h w => eabs (p (ix4 m b h w) - y (ix3 b h w)))

/-- The points' parts of `S₂` add up to `S₂`. -/
theorem sum_blockMeanAbsSq (p : PIdx → EReal) (c : EReal) : ∑ t : Fin 32, blockMeanAbsSq p c t = meanAbsSqSum p c :=
  sum_grid3 (fun b h w => meanAbs p c b h w * meanAbs p c b h w)

/-- The scalar both programs end with, from the two sums: `s₁ / 2²⁵ − (s₂ / 2²¹) / 512`, the divisors as the float words
    the programs spell. -/
def score (s1 s2 : EReal) : (⟨0, ![]⟩ : Shape).Idx → EReal := fun _ =>
  Ideal.div s1 (Ideal.ofBits .f32 0x4C000000#32)
    - Ideal.div (Ideal.div s2 (Ideal.ofBits .f32 0x4A000000#32)) (Ideal.ofBits .f32 0x44000000#32)

end Cert.Crps.Spec

end
-- ==== Proof.RefSide.lean ====
/-
  The reference computes `score S₁ S₂`.

  Read one operation at a time at an index, the reference's result is
      (0 + Σ_j |p j − y(j's last three coordinates)|) / 2²⁵ − ((0 + Σ_i (s i)·(s i)) / 2²¹) / 512,
  where `s (b,h,w) = (0 + Σ_m |p(m,b,h,w)|) / 16`.  The sums over the index sets are the iterated sums over the
  coordinates, the zero word denotes 0, and dividing by the word 16 is multiplying by the word 1/16.
-/
import proofs.«137160_j14645838479695_1_alg».proof.Proof.Gen.ReferenceIdeal.Run
import proofs.«137160_j14645838479695_1_alg».proof.Proof.Gen.ReferenceIdeal.Read
import Idealize.ShloMosaic.PureOps.Ideal.Laws
import proofs.«137160_j14645838479695_1_alg».proof.Proof.Consts
import proofs.«137160_j14645838479695_1_alg».proof.Proof.Spec

noncomputable section

open scoped BigOperators

namespace Cert.Crps.RefSide

open Idealize.ShloMosaic Idealize.ShloMosaic.ValueIdx Cert.ReferenceIdeal Cert.ReferenceIdeal.Read Cert.Crps.Spec Cert.Crps.Sums Cert.LibIdxSum

variable (x0 : (⟨S16x8x512x512, .f32⟩ : BufTy).Contents (Elt Ideal)) (x1 : (⟨S8x512x512, .f32⟩ : BufTy).Contents (Elt Ideal))

/-- The target broadcast over the ensemble, read at `(m, b, h, w)`, is the target at `(b, h, w)`. -/
theorem bcast_at (m : Fin 16) (b : Fin 8) (h w : Fin 512) :
    idx_main_v0 (idx_main_v1 (ix4 m b h w)) = ix3 b h w := by
  funext a; match a with | ⟨0, _⟩ => rfl | ⟨1, _⟩ => rfl | ⟨2, _⟩ => rfl

/-- The absolute error at `(m, b, h, w)`. -/
theorem absDiff_at (m : Fin 16) (b : Fin 8) (h w : Fin 512) :
    val_main_v3 (F := Ideal) x0 x1 (ix4 m b h w) = eabs (x0 (ix4 m b h w) - x1 (ix3 b h w)) := by
  rw [val_main_v3_apply, val_main_v2_apply, val_main_v1_apply, val_main_v0_apply, bcast_at]
  rfl

/-- The ensemble axis inserted in front of `(b, h, w)`. -/
theorem ens_at (b : Fin 8) (h w : Fin 512) (k : Fin 16) : idx_main_v7 (ix3 b h w) k = ix4 k b h w := by
  funext a; match a with | ⟨0, _⟩ => rfl | ⟨1, _⟩ => rfl | ⟨2, _⟩ => rfl | ⟨3, _⟩ => rfl

/-- The ensemble mean of `|p|` at `(b, h, w)`: the sum over the sixteen members times the word 1/16. -/
theorem mean_at (b : Fin 8) (h w : Fin 512) :
    val_main_v9 (F := Ideal) x0 (ix3 b h w) = meanAbs x0 (Ideal.ofBits .f32 0x3D800000#32) b h w := by
  rw [val_main_v9_apply, val_main_v7_apply, val_main_v8_apply, val_main_cst_1_apply, val_main_cst_2_apply]
  simp only [Ideal.hostDivf_def, Ideal.ofBits_def, Ideal.ofBits_zero_f32, zero_add, Consts.div_sixteen, ens_at]
  rfl

/-- **The reference's result is `score S₁ S₂`.** -/
theorem result_eq :
    val_main_v14 (F := Ideal) x0 x1 = score (absDiffSum x0 x1) (meanAbsSqSum x0 (Ideal.ofBits .f32 0x3D800000#32)) := by
  funext i
  rw [val_main_v14_apply, val_main_v5_apply, val_main_v4_apply, val_main_v13_apply, val_main_v12_apply,
    val_main_v11_apply, val_main_cst_apply, val_main_cst_0_apply, val_main_cst_3_apply, val_main_cst_4_apply,
    val_main_cst_5_apply, sum_idx4, sum_idx3]
  simp only [absDiff_at, val_main_v10_apply, mean_at, Ideal.hostDivf_def, Ideal.ofBits_def, Ideal.ofBits_zero_f32,
    zero_add, Ideal.subf_def, Ideal.mulf_def]
  rfl

end Cert.Crps.RefSide

end
-- ==== Proof.Pieces.lean ====
/-
  What each of the body's two control cases leaves in the two accumulators, as the body's own arithmetic.

  The body keeps two running totals, one block [8, 128] each.  At the first grid point (case A) it stores the zero block
  into both, reads each back, and stores the read-back plus the point's contribution; the last store covers the block,
  so the block ends at that sum over the zero block.  At every later point (case B) the one store per accumulator
  covers the block with the carried contents plus the point's contribution.  Each contribution is a pure function of the
  two input blocks the point has staged (the body's named arithmetic).  Nothing here depends on the float instance.
-/
import proofs.«137160_j14645838479695_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.Crps.Pieces

open Cert.KernelIdeal Cert.KernelIdeal.Gen

variable {F : FTy → Type} [FloatOps F]

/-- The accumulators' one access rectangle starts at the origin. -/
theorem hz : (![0, 0] : Fin 2 → Nat) = fun _ => 0 := funext fun a => by fin_cases a <;> rfl
/-- So does the target block's, -/
theorem hz3 : (![0, 0, 0] : Fin 3 → Nat) = fun _ => 0 := funext fun a => by fin_cases a <;> rfl
/-- and the prediction block's: each load reads its whole staged block. -/
theorem hz4 : (![0, 0, 0, 0] : Fin 4 → Nat) = fun _ => 0 := funext fun a => by fin_cases a <;> rfl

/-- CASE A, the first total: the zero block plus the point's absolute errors. -/
theorem first_A (c : Dev nD) (i : grid0.Coords) (a2 : Memref sig .tc .vmem S16x1x128x512 .f32) (h2 : a2.IsWhole)
    (a3 : Memref sig .tc .vmem S1x128x512 .f32) (h3 : a3.IsWhole) (a4 : Memref sig .tc .vmem S8x128 .f32) (h4 : a4.IsWhole)
    (a5 : Memref sig .tc .vmem S8x128 .f32) (h5 : a5.IsWhole) (hc : cond0_0 i)
    (x0 : Vec F S16x1x128x512 .f32) (x1 : Vec F S1x128x512 .f32) :
    out0_A_2 c i a2 h2 a3 h3 a4 h4 a5 h5 hc x0 x1 = k0_pay6 x0 x1 (k0_pay2 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S8x128) hz, View.readCov_unit_zero (S := S8x128) _ hz]
  simp only [View.readAt_eq_ld, h2.read_unread, h3.read_unread, View.ld_unit_zero (S := S16x1x128x512) hz4,
    View.ld_unit_zero (S := S1x128x512) hz3]

/-- CASE A, the second total: the zero block plus the point's squared ensemble means. -/
theorem second_A (c : Dev nD) (i : grid0.Coords) (a2 : Memref sig .tc .vmem S16x1x128x512 .f32) (h2 : a2.IsWhole)
    (a3 : Memref sig .tc .vmem S1x128x512 .f32) (h3 : a3.IsWhole) (a4 : Memref sig .tc .vmem S8x128 .f32) (h4 : a4.IsWhole)
    (a5 : Memref sig .tc .vmem S8x128 .f32) (h5 : a5.IsWhole) (hc : cond0_0 i)
    (x0 : Vec F S16x1x128x512 .f32) (x1 : Vec F S1x128x512 .f32) :
    out0_A_3 c i a2 h2 a3 h3 a4 h4 a5 h5 hc x0 x1 = k0_pay1 (k0_pay5 x0) (k0_pay3 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S8x128) hz, View.readCov_unit_zero (S := S8x128) _ hz]
  simp only [View.readAt_eq_ld, h2.read_unread, View.ld_unit_zero (S := S16x1x128x512) hz4]

/-- CASE B, the first total: the carried contents plus the point's absolute errors. -/
theorem first_B (c : Dev nD) (i : grid0.Coords) (a2 : Memref sig .tc .vmem S16x1x128x512 .f32) (h2 : a2.IsWhole)
    (a3 : Memref sig .tc .vmem S1x128x512 .f32) (h3 : a3.IsWhole) (a4 : Memref sig .tc .vmem S8x128 .f32) (h4 : a4.IsWhole)
    (a5 : Memref sig .tc .vmem S8x128 .f32) (h5 : a5.IsWhole) (hc : ¬cond0_0 i)
    (x0 : Vec F S16x1x128x512 .f32) (x1 : Vec F S1x128x512 .f32) (xo2 xo3 : Vec F S8x128 .f32) :
    out0_B_2 c i a2 h2 a3 h3 a4 h4 a5 h5 hc x0 x1 xo2 xo3 = k0_pay6 x0 x1 xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz]
  simp only [View.readAt_eq_ld, h2.read_unread, h3.read_unread, h4.read_unread, View.ld_unit_zero (S := S16x1x128x512) hz4,
    View.ld_unit_zero (S := S1x128x512) hz3, View.ld_unit_zero (S := S8x128) hz]

/-- CASE B, the second total: the carried contents plus the point's squared ensemble means. -/
theorem second_B (c : Dev nD) (i : grid0.Coords) (a2 : Memref sig .tc .vmem S16x1x128x512 .f32) (h2 : a2.IsWhole)
    (a3 : Memref sig .tc .vmem S1x128x512 .f32) (h3 : a3.IsWhole) (a4 : Memref sig .tc .vmem S8x128 .f32) (h4 : a4.IsWhole)
    (a5 : Memref sig .tc .vmem S8x128 .f32) (h5 : a5.IsWhole) (hc : ¬cond0_0 i)
    (x0 : Vec F S16x1x128x512 .f32) (x1 : Vec F S1x128x512 .f32) (xo2 xo3 : Vec F S8x128 .f32) :
    out0_B_3 c i a2 h2 a3 h3 a4 h4 a5 h5 hc x0 x1 xo2 xo3 = k0_pay1 (k0_pay5 x0) xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz]
  simp only [View.readAt_eq_ld, h2.read_unread, h5.read_unread, View.ld_unit_zero (S := S16x1x128x512) hz4,
    View.ld_unit_zero (S := S8x128) hz]

end Cert.Crps.Pieces

end
-- ==== Proof.LibLaneSum.lean ====
/-
  A lane sum over one axis, and the small layout changes around it, read at coordinates, at the ideal values.

  At the ideal values a float sum over one axis of an array is, at each index of the result, the plain sum of the
  entries along that axis (no order, no rounding).  Written with the result's index given by its coordinates: summing
  the last axis of `[A, B, C]` at `(a, b)` is `Σ_c v(a, b, c)`; summing the first at `(b, c)` is `Σ_a v(a, b, c)`; summing
  the second axis of `[A, B]` at `a` is `Σ_b v(a, b)`.  An array `[A, 1, B, C]` viewed as `[A, B, C]` has the same entries,
  and extracting position `[0, 0]` of a `[1, 1]` array reads its one entry.  All extents are arbitrary.
-/
import Idealize.ShloMosaic.PureOps.Ideal.Laws
import Idealize.ShloMosaic.Lib.Pipeline.Value
import Idealize.ShloMosaic.Lib.ValueIdx

noncomputable section

open scoped BigOperators

namespace Cert.LibLaneSum

open Idealize.ShloMosaic Idealize.ShloMosaic.ValueIdx

/-- The sum over the last axis of `[A, B, C]`, at `(a, b)`. -/
theorem sum_last3 {A B C : Nat} (v : FVec Ideal ⟨3, ![A, B, C]⟩ .f32) (acc : BitVec 32)
    (h : (⟨3, ![A, B, C]⟩ : Shape).Reduces [2] ⟨2, ![A, B]⟩) (hφ : FKind.Formats .f32)
    (hacc : acc = FKind.add.neutral .f32 hφ) (a : Fin A) (b : Fin B) :
    multiReduction .add [2] ⟨2, ![A, B]⟩ v acc h hφ hacc (ix2 a b) = ∑ c : Fin C, v (ix3 a b c) := by
  refine (Ideal.multiReduction_add_single v acc h hφ hacc (ix2 a b)).trans ?_
  exact Finset.sum_congr rfl fun k _ => congrArg v (funext fun d => Fin.ext (by
    match d with | ⟨0, _⟩ => rfl | ⟨1, _⟩ => rfl | ⟨2, _⟩ => rfl))

/-- The sum over the first axis of `[A, B, C]`, at `(b, c)`. -/
theorem sum_first3 {A B C : Nat} (v : FVec Ideal ⟨3, ![A, B, C]⟩ .f32) (acc : BitVec 32)
    (h : (⟨3, ![A, B, C]⟩ : Shape).Reduces [0] ⟨2, ![B, C]⟩) (hφ : FKind.Formats .f32)
    (hacc : acc = FKind.add.neutral .f32 hφ) (b : Fin B) (c : Fin C) :
    multiReduction .add [0] ⟨2, ![B, C]⟩ v acc h hφ hacc (ix2 b c) = ∑ a : Fin A, v (ix3 a b c) := by
  refine (Ideal.multiReduction_add_single v acc h hφ hacc (ix2 b c)).trans ?_
  exact Finset.sum_congr rfl fun k _ => congrArg v (funext fun d => Fin.ext (by
    match d with | ⟨0, _⟩ => rfl | ⟨1, _⟩ => rfl | ⟨2, _⟩ => rfl))

/-- The sum over the second axis of `[A, B]`, at `a`. -/
theorem sum_last2 {A B : Nat} (v : FVec Ideal ⟨2, ![A, B]⟩ .f32) (acc : BitVec 32)
    (h : (⟨2, ![A, B]⟩ : Shape).Reduces [1] ⟨1, ![A]⟩) (hφ : FKind.Formats .f32)
    (hacc : acc = FKind.add.neutral .f32 hφ) (a : Fin A) :
    multiReduction .add [1] ⟨1, ![A]⟩ v acc h hφ hacc (ix1 a) = ∑ b : Fin B, v (ix2 a b) := by
  refine (Ideal.multiReduction_add_single v acc h hφ hacc (ix1 a)).trans ?_
  exact Finset.sum_congr rfl fun k _ => congrArg v (funext fun d => Fin.ext (by
    match d with | ⟨0, _⟩ => rfl | ⟨1, _⟩ => rfl))

/-- `[A, 1, B, C]` viewed as `[A, B, C]`: entry `(a, b, c)` is entry `(a, 0, b, c)`. -/
theorem squeeze_mid {α : Type} {A B C : Nat} (x : (⟨4, ![A, 1, B, C]⟩ : Shape).Idx → α)
    (h : (⟨4, ![A, 1, B, C]⟩ : Shape).ShapeCasts ⟨3, ![A, B, C]⟩) (a : Fin A) (b : Fin B) (c : Fin C) :
    shapeCast ⟨3, ![A, B, C]⟩ x h (ix3 a b c) = x (ix4 a (0 : Fin 1) b c) :=
  shapeCast_apply x h _ _ (by
    rw [Shape.rowMajor_val_four, Shape.rowMajor_val_three]
    show ((a.val * 1 + 0) * B + b.val) * C + c.val = (a.val * B + b.val) * C + c.val
    rw [Nat.mul_one, Nat.add_zero])

/-- Position `[0, 0]` of a `[1, 1]` array, as a vector extract spells it, is its entry `(0, 0)`. -/
theorem extract_00 {α : Type} (v : (⟨2, ![1, 1]⟩ : Shape).Idx → α)
    (h : ∀ a, (![0, 0] : Fin 2 → Nat) a < (⟨2, ![1, 1]⟩ : Shape).size a) :
    extractAt ![0, 0] v h = v (ix2 (0 : Fin 1) (0 : Fin 1)) :=
  congrArg v (funext fun a => Fin.ext (by match a with | ⟨0, _⟩ => rfl | ⟨1, _⟩ => rfl))

end Cert.LibLaneSum

end
-- ==== Proof.Payload.lean ====
/-
  The body's arithmetic at the ideal values.

  Let x₀ be the staged prediction block, [16, 1, 128, 512] indexed (m, 0, r, w), and x₁ the staged target block,
  [1, 128, 512] indexed (0, r, w).  The body computes two scalars,

      t₁ = Σ_m Σ_r Σ_w |x₀(m,0,r,w) − x₁(0,r,w)|           (lanes first, then rows, then ensemble members)
      t₂ = Σ_r Σ_w ( (Σ_m |x₀(m,0,r,w)|) · c )²             (c the word 1/16)

  and adds t₁ to every entry of the first running total and t₂ to every entry of the second.  Each lane sum is a
  plain sum at the ideal values, the casts between [16], [1, 16] and [1, 1] move no entry, and a splat is its scalar at
  every index.  The zero block is 0 at every index.
-/
import proofs.«137160_j14645838479695_1_alg».proof.Proof.Gen.KernelIdeal.Skeleton
import proofs.«137160_j14645838479695_1_alg».proof.Proof.LibLaneSum
import Idealize.ShloMosaic.Lib.ValueLayout
import proofs.«137160_j14645838479695_1_alg».proof.Proof.Spec

noncomputable section

open scoped BigOperators

namespace Cert.Crps.Payload

open Idealize.ShloMosaic Idealize.ShloMosaic.ValueIdx Cert.KernelIdeal Cert.KernelIdeal.Gen Cert.Crps.Spec Cert.LibLaneSum

/-- `t₁` of the staged blocks. -/
def blkAbsDiff (x0 : S16x1x128x512.Idx → EReal) (x1 : S1x128x512.Idx → EReal) : EReal :=
  ∑ m : Fin 16, ∑ r : Fin 128, ∑ w : Fin 512, eabs (x0 (ix4 m (0 : Fin 1) r w) - x1 (ix3 (0 : Fin 1) r w))

/-- The scaled ensemble sum of `|x₀|` at row `r`, column `w` of the block. -/
def blkMeanAbs (x0 : S16x1x128x512.Idx → EReal) (c : EReal) (r : Fin 128) (w : Fin 512) : EReal :=
  (∑ m : Fin 16, eabs (x0 (ix4 m (0 : Fin 1) r w))) * c

/-- `t₂` of the staged block. -/
def blkMeanAbsSq (x0 : S16x1x128x512.Idx → EReal) (c : EReal) : EReal :=
  ∑ r : Fin 128, ∑ w : Fin 512, blkMeanAbs x0 c r w * blkMeanAbs x0 c r w

/-! ## The three successive lane sums down to a scalar -/

/-- Lanes, then rows, then members: the scalar the body extracts is the sum of all entries of a `[16, 128, 512]` array. -/
theorem total_mrw (v : FVec Ideal S16x128x512 .f32) (h1 : S16x128x512.Reduces [2] S16x128) (h2 : S16x128.Reduces [1] S16)
    (c1 : S16.ShapeCasts S1x16) (h3 : S1x16.Reduces [1] S1) (c2 : S1.ShapeCasts S1x1)
    (hp : ∀ a, (![0, 0] : Fin 2 → Nat) a < S1x1.size a) (hφ : FKind.Formats .f32)
    (hacc : (0x00000000#32 : BitVec 32) = FKind.add.neutral .f32 hφ) :
    extractAt ![0, 0] (shapeCast S1x1 (multiReduction .add [1] S1 (shapeCast S1x16
        (multiReduction .add [1] S16 (multiReduction .add [2] S16x128 v 0x00000000#32 h1 hφ hacc) 0x00000000#32 h2 hφ hacc) c1)
        0x00000000#32 h3 hφ hacc) c2) hp
      = ∑ m : Fin 16, ∑ r : Fin 128, ∑ w : Fin 512, v (ix3 m r w) := by
  refine (extract_00 _ hp).trans ?_
  refine (shapeCast_a_1a_apply _ c2 (0 : Fin 1) (0 : Fin 1)).trans ?_
  refine (sum_last2 _ _ h3 hφ hacc (0 : Fin 1)).trans ?_
  refine Finset.sum_congr rfl fun m _ => ?_
  refine (shapeCast_a_1a_apply _ c1 (0 : Fin 1) m).trans ?_
  refine (sum_last2 _ _ h2 hφ hacc m).trans ?_
  exact Finset.sum_congr rfl fun r _ => sum_last3 v _ h1 hφ hacc m r

/-- Lanes, then rows: the scalar the body extracts is the sum of all entries of a `[128, 512]` array. -/
theorem total_rw (v : FVec Ideal S128x512 .f32) (h1 : S128x512.Reduces [1] S128) (c1 : S128.ShapeCasts S1x128)
    (h2 : S1x128.Reduces [1] S1) (c2 : S1.ShapeCasts S1x1)
    (hp : ∀ a, (![0, 0] : Fin 2 → Nat) a < S1x1.size a) (hφ : FKind.Formats .f32)
    (hacc : (0x00000000#32 : BitVec 32) = FKind.add.neutral .f32 hφ) :
    extractAt ![0, 0] (shapeCast S1x1 (multiReduction .add [1] S1 (shapeCast S1x128
        (multiReduction .add [1] S128 v 0x00000000#32 h1 hφ hacc) c1) 0x00000000#32 h2 hφ hacc) c2) hp
      = ∑ r : Fin 128, ∑ w : Fin 512, v (ix2 r w) := by
  refine (extract_00 _ hp).trans ?_
  refine (shapeCast_a_1a_apply _ c2 (0 : Fin 1) (0 : Fin 1)).trans ?_
  refine (sum_last2 _ _ h2 hφ hacc (0 : Fin 1)).trans ?_
  refine Finset.sum_congr rfl fun r _ => ?_
  refine (shapeCast_a_1a_apply _ c1 (0 : Fin 1) r).trans ?_
  exact sum_last2 v _ h1 hφ hacc r

/-! ## The entries the sums run over -/

/-- The target block spread over the sixteen members: at `(m, r, w)` it is the target at `(0, r, w)`. -/
theorem target_at (x1 : FVec Ideal S1x128x512 .f32) (c1 : S1x128x512.ShapeCasts S128x512) (c2 : S128x512.ShapeCasts S1x128x512)
    (hb : S1x128x512.Broadcasts S16x128x512) (m : Fin 16) (r : Fin 128) (w : Fin 512) :
    broadcastTo S16x128x512 (shapeCast S1x128x512 (shapeCast S128x512 x1 c1) c2) hb (ix3 m r w) = x1 (ix3 (0 : Fin 1) r w) := by
  refine (broadcastTo_apply _ hb (ix3 m r w) (ix3 (0 : Fin 1) r w) (fun a => ?_)).trans ?_
  · match a with
    | ⟨0, _⟩ => rfl
    | ⟨1, _⟩ => show r.val = if (128 : Nat) = 1 then 0 else r.val; rw [if_neg (by decide)]
    | ⟨2, _⟩ => show w.val = if (512 : Nat) = 1 then 0 else w.val; rw [if_neg (by decide)]
  · exact (shapeCast_ab_1ab_apply _ c2 (0 : Fin 1) r w).trans (shapeCast_1ab_ab_apply x1 c1 r w)

/-! ## The four payloads -/

/-- The zero block of the first total is 0 everywhere. -/
theorem zero2_at (j : S8x128.Idx) : k0_pay2 (F := Ideal) j = 0 := Ideal.ofBits_zero_f32
/-- The zero block of the second total is 0 everywhere. -/
theorem zero3_at (j : S8x128.Idx) : k0_pay3 (F := Ideal) j = 0 := Ideal.ofBits_zero_f32

/-- The first total's update: every entry grows by `t₁`. -/
theorem first_at (x0 : Vec Ideal S16x1x128x512 .f32) (x1 : Vec Ideal S1x128x512 .f32) (acc : Vec Ideal S8x128 .f32)
    (j : S8x128.Idx) : k0_pay6 (F := Ideal) x0 x1 acc j = acc j + blkAbsDiff x0 x1 := by
  unfold k0_pay6 k0_pay4
  refine congrArg₂ (· + ·) (congrFun (shapeCast_self acc _) j) ?_
  refine (total_mrw _ _ _ _ _ _ _ _ rfl).trans ?_
  refine Finset.sum_congr rfl fun m _ => Finset.sum_congr rfl fun r _ => Finset.sum_congr rfl fun w _ => ?_
  exact congrArg eabs (congrArg₂ (· - ·) (squeeze_mid x0 _ m r w) (target_at x1 _ _ _ m r w))

/-- The scalar `t₂`. -/
theorem meanSq_eq (x0 : Vec Ideal S16x1x128x512 .f32) :
    k0_pay5 (F := Ideal) x0 = blkMeanAbsSq x0 (Ideal.ofBits .f32 0x3D800000#32) := by
  unfold k0_pay5 k0_pay4
  refine (total_rw _ _ _ _ _ _ _ rfl).trans ?_
  refine Finset.sum_congr rfl fun r _ => Finset.sum_congr rfl fun w _ => ?_
  have e : (multiReduction .add [0] S128x512 (absf (shapeCast S16x128x512 x0 shapeCasts_S16x1x128x512_S16x128x512)) 0x00000000#32
        reduces_S16x128x512_S128x512 (.inl rfl) rfl : FVec Ideal S128x512 .f32) (ix2 r w)
      = ∑ m : Fin 16, eabs (x0 (ix4 m (0 : Fin 1) r w)) :=
    (sum_first3 _ _ _ _ rfl r w).trans (Finset.sum_congr rfl fun m _ => congrArg eabs (squeeze_mid x0 _ m r w))
  exact congrArg₂ (· * ·) (congrArg (· * _) e) (congrArg (· * _) e)

/-- The second total's update: every entry grows by the scalar handed in. -/
theorem second_at (t : Ideal .f32) (acc : Vec Ideal S8x128 .f32) (j : S8x128.Idx) :
    k0_pay1 (F := Ideal) t acc j = acc j + t := by
  unfold k0_pay1
  exact congrArg₂ (· + ·) (congrFun (shapeCast_self acc _) j) rfl

end Cert.Crps.Payload

end
-- ==== Proof.Accumulate.lean ====
/-
  The two running totals after each grid point, at the ideal values.

  Grid point t stages block t of the predictions, entries (m, t / 4, 128·(t mod 4) + r, w), and block t of the targets,
  entries (t / 4, 128·(t mod 4) + r, w).  Its contribution to the first total is the sum of the absolute errors over
  that block, and to the second the sum of the squared scaled ensemble sums of |p| over it: exactly the point's parts
  `blockAbsDiff` and `blockMeanAbsSq` of the two whole-array sums.  The first point starts both totals at zero, every
  later point adds to what the point before left, so after point n every entry of each total is the sum of the
  contributions of points 0, …, n.
-/
import proofs.«137160_j14645838479695_1_alg».proof.Proof.Pieces
import proofs.«137160_j14645838479695_1_alg».proof.Proof.Payload
import proofs.«137160_j14645838479695_1_alg».proof.Proof.LibBlockSum

noncomputable section

open scoped BigOperators

namespace Cert.Crps.Accumulate

open Idealize.ShloMosaic Idealize.ShloMosaic.TcCoe Idealize.SL.Sem Idealize.ShloMosaic.ValueIdx
open Cert.KernelIdeal Cert.KernelIdeal.Gen Cert.Crps.Spec Cert.Crps.Sums Cert.Crps.Payload Cert.LibBlockSum

variable (m : (ℓ : Loc nD τ sig) → Buf (Elt Ideal) ℓ)

/-- The predictions as the region finds them. -/
abbrev parr (c : Dev nD) : Vec Ideal S16x8x512x512 .f32 := V m c main_arg0
/-- The targets as the region finds them. -/
abbrev yarr (c : Dev nD) : Vec Ideal S8x512x512 .f32 := V m c main_arg1
/-- The prediction block point `t` stages. -/
abbrev pblk (c : Dev nD) (t : Fin cfg0.N) : Vec Ideal S16x1x128x512 .f32 := iblk m c 0 t
/-- The target block point `t` stages. -/
abbrev yblk (c : Dev nD) (t : Fin cfg0.N) : Vec Ideal S1x128x512 .f32 := iblk m c 1 t

/-- Point `t` as one of the 32 grid points. -/
abbrev pt (t : Fin cfg0.N) : Fin 32 := ⟨t.val, lt_of_lt_of_eq t.isLt N_0⟩

/-- Where the two windows' blocks sit at point `t`: batch entry `t / 4`, row block `t mod 4`, the other axes whole. -/
theorem index_facts : ∀ t : Fin cfg0.N,
    (win0_0.index t 0 = 0 ∧ win0_0.index t 1 = t.val / 4 ∧ win0_0.index t 2 = t.val % 4 ∧ win0_0.index t 3 = 0)
    ∧ (win0_1.index t 0 = t.val / 4 ∧ win0_1.index t 1 = t.val % 4 ∧ win0_1.index t 2 = 0) :=
  (by decide +kernel : ∀ t : Fin grid0.N,
    (win0_0.index t 0 = 0 ∧ win0_0.index t 1 = t.val / 4 ∧ win0_0.index t 2 = t.val % 4 ∧ win0_0.index t 3 = 0)
    ∧ (win0_1.index t 0 = t.val / 4 ∧ win0_1.index t 1 = t.val % 4 ∧ win0_1.index t 2 = 0))

/-- Entry `(m, 0, r, w)` of the staged prediction block is entry `(m, t / 4, 128·(t mod 4) + r, w)` of the array. -/
theorem pblk_at (c : Dev nD) (t : Fin cfg0.N) (k : Fin 16) (r : Fin 128) (w : Fin 512) :
    pblk m c t (ix4 k (0 : Fin 1) r w) = parr m c (ix4 k (gridBatch (pt t)) (gridRow (pt t) r) w) := by
  obtain ⟨⟨e0, e1, e2, e3⟩, -⟩ := index_facts t
  show V m c main_arg0 (((cfg0.win 0).blk t).view.emb (ix4 k (0 : Fin 1) r w)) = V m c main_arg0 _
  refine congrArg (V m c main_arg0) (funext fun a => Fin.ext ?_)
  match a with
  | ⟨0, _⟩ => show win0_0.index t 0 * 16 + 1 * k.val = k.val; rw [e0]; omega
  | ⟨1, _⟩ => show win0_0.index t 1 * 1 + 1 * 0 = t.val / 4; rw [e1]; omega
  | ⟨2, _⟩ => show win0_0.index t 2 * 128 + 1 * r.val = 128 * (t.val % 4) + r.val; rw [e2]; omega
  | ⟨3, _⟩ => show win0_0.index t 3 * 512 + 1 * w.val = w.val; rw [e3]; omega

/-- Entry `(0, r, w)` of the staged target block is entry `(t / 4, 128·(t mod 4) + r, w)` of the array. -/
theorem yblk_at (c : Dev nD) (t : Fin cfg0.N) (r : Fin 128) (w : Fin 512) :
    yblk m c t (ix3 (0 : Fin 1) r w) = yarr m c (ix3 (gridBatch (pt t)) (gridRow (pt t) r) w) := by
  obtain ⟨-, e0, e1, e2⟩ := index_facts t
  show V m c main_arg1 (((cfg0.win 1).blk t).view.emb (ix3 (0 : Fin 1) r w)) = V m c main_arg1 _
  refine congrArg (V m c main_arg1) (funext fun a => Fin.ext ?_)
  match a with
  | ⟨0, _⟩ => show win0_1.index t 0 * 1 + 1 * 0 = t.val / 4; rw [e0]; omega
  | ⟨1, _⟩ => show win0_1.index t 1 * 128 + 1 * r.val = 128 * (t.val % 4) + r.val; rw [e1]; omega
  | ⟨2, _⟩ => show win0_1.index t 2 * 512 + 1 * w.val = w.val; rw [e2]; omega

/-- The word 1/16 the kernel scales by. -/
abbrev sixteenth : EReal := Ideal.ofBits .f32 0x3D800000#32

/-- Point `t`'s contribution to the first total is its part of the absolute-error sum. -/
theorem contrib_first (c : Dev nD) (t : Fin cfg0.N) :
    blkAbsDiff (pblk m c t) (yblk m c t) = blockAbsDiff (parr m c) (yarr m c) (pt t) := by
  unfold blkAbsDiff blockAbsDiff
  refine Finset.sum_congr rfl fun k _ => Finset.sum_congr rfl fun r _ => Finset.sum_congr rfl fun w _ => ?_
  rw [pblk_at, yblk_at]

/-- Point `t`'s contribution to the second total is its part of the squared-mean sum. -/
theorem contrib_second (c : Dev nD) (t : Fin cfg0.N) :
    blkMeanAbsSq (pblk m c t) sixteenth = blockMeanAbsSq (parr m c) sixteenth (pt t) := by
  unfold blkMeanAbsSq blockMeanAbsSq
  refine Finset.sum_congr rfl fun r _ => Finset.sum_congr rfl fun w _ => ?_
  have e : blkMeanAbs (pblk m c t) sixteenth r w = meanAbs (parr m c) sixteenth (gridBatch (pt t)) (gridRow (pt t) r) w := by
    unfold blkMeanAbs meanAbs
    refine congrArg (· * sixteenth) (Finset.sum_congr rfl fun k _ => ?_)
    rw [pblk_at]
  rw [e]

/-- The first total's contributions, point by point. -/
def firstPart (c : Dev nD) : Fin 32 → EReal := blockAbsDiff (parr m c) (yarr m c)
/-- The second total's contributions, point by point. -/
def secondPart (c : Dev nD) : Fin 32 → EReal := blockMeanAbsSq (parr m c) sixteenth

/-- **After point `n` every entry of the first total is the sum of the contributions of points `0 … n`, and likewise the
    second**: the first point starts from the zero block, each later point adds to what the point before left. -/
theorem totals_after (c : Dev nD) : ∀ (n : ℕ) (hn : n < cfg0.N) (j : S8x128.Idx),
    (outsAt0 m c n hn).1 j = partialSum (firstPart m c) (n + 1)
    ∧ (outsAt0 m c n hn).2 j = partialSum (secondPart m c) (n + 1)
  | 0, hn, j => by
    have h32 : (0 : ℕ) < 32 := by norm_num
    rw [outsAt0_A m c ⟨0, hn⟩ rfl]
    dsimp only
    constructor
    · refine (congrFun (Pieces.first_A c _ _ _ _ _ _ _ _ _ _ (pblk m c ⟨0, hn⟩) (yblk m c ⟨0, hn⟩)) j).trans ?_
      refine (first_at (pblk m c ⟨0, hn⟩) (yblk m c ⟨0, hn⟩) (k0_pay2 (F := Ideal)) j).trans ?_
      rw [zero2_at, zero_add, partialSum_succ _ h32, partialSum_zero, zero_add, contrib_first]
      rfl
    · refine (congrFun (Pieces.second_A c _ _ _ _ _ _ _ _ _ _ (pblk m c ⟨0, hn⟩) (yblk m c ⟨0, hn⟩)) j).trans ?_
      refine (second_at (k0_pay5 (F := Ideal) (pblk m c ⟨0, hn⟩)) (k0_pay3 (F := Ideal)) j).trans ?_
      rw [zero3_at, zero_add, partialSum_succ _ h32, partialSum_zero, zero_add, meanSq_eq, contrib_second]
      rfl
  | n + 1, hn, j => by
    have hN : n + 1 < 32 := lt_of_lt_of_eq hn N_0
    have hB : ¬(⟨n + 1, hn⟩ : Fin cfg0.N).val % 32 = 0 := by dsimp only; omega
    have ih := totals_after c n (Nat.lt_of_succ_lt hn)
    rw [outsAt0_B m c ⟨n + 1, hn⟩ hB]
    dsimp only
    constructor
    · refine (congrFun (Pieces.first_B c _ _ _ _ _ _ _ _ _ _ (pblk m c ⟨n + 1, hn⟩) (yblk m c ⟨n + 1, hn⟩)
        (outsAt0 m c n (Nat.lt_of_succ_lt hn)).1 (outsAt0 m c n (Nat.lt_of_succ_lt hn)).2) j).trans ?_
      refine (first_at (pblk m c ⟨n + 1, hn⟩) (yblk m c ⟨n + 1, hn⟩) (outsAt0 m c n (Nat.lt_of_succ_lt hn)).1 j).trans ?_
      rw [(ih j).1, partialSum_succ _ hN, contrib_first]
      rfl
    · refine (congrFun (Pieces.second_B c _ _ _ _ _ _ _ _ _ _ (pblk m c ⟨n + 1, hn⟩) (yblk m c ⟨n + 1, hn⟩)
        (outsAt0 m c n (Nat.lt_of_succ_lt hn)).1 (outsAt0 m c n (Nat.lt_of_succ_lt hn)).2) j).trans ?_
      refine (second_at (k0_pay5 (F := Ideal) (pblk m c ⟨n + 1, hn⟩)) (outsAt0 m c n (Nat.lt_of_succ_lt hn)).2 j).trans ?_
      rw [(ih j).2, partialSum_succ _ hN, meanSq_eq, contrib_second]
      rfl

/-- **After the last point the first total holds the whole absolute-error sum and the second the whole squared-mean sum**,
    at every entry. -/
theorem totals_last (c : Dev nD) (hn : 31 < cfg0.N) (j : S8x128.Idx) :
    (outsAt0 m c 31 hn).1 j = absDiffSum (parr m c) (yarr m c)
    ∧ (outsAt0 m c 31 hn).2 j = meanAbsSqSum (parr m c) sixteenth := by
  obtain ⟨h1, h2⟩ := totals_after m c 31 hn j
  refine ⟨h1.trans ?_, h2.trans ?_⟩
  · rw [partialSum_self]; exact sum_blockAbsDiff _ _
  · rw [partialSum_self]; exact sum_blockMeanAbsSq _ _

end Cert.Crps.Accumulate

end
-- ==== Proof.KernelValue.lean ====
/-
  The kernel's result at the ideal values.

  Both running totals are written back once, at the last grid point, and their one block is the whole [8, 128] output
  array; so after the run the first output array holds S₁ at every entry and the second S₂ (the sums of Spec).  The
  host operations after the call read entry (0, 0) of each, divide the first by 2²⁵, the second by 2²¹ and then by
  512, and subtract: the result is `score S₁ S₂`.
-/
import proofs.«137160_j14645838479695_1_alg».proof.Proof.Accumulate
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Crps.KernelValue

open Cert.KernelIdeal Cert.KernelIdeal.Gen Cert.Crps.Spec Cert.Crps.Accumulate

variable (m : (ℓ : Loc nD τ sig) → Buf (Elt Ideal) ℓ) (ρ : Dev nD → PrngReg)

/-- The last grid point, the one at which both totals are written back. -/
abbrev last : Fin cfg0.N := ⟨31, by rw [show cfg0.N = 32 from N_0]; norm_num⟩

/-- The first output array after the run: the whole absolute-error sum at every entry. -/
def firstArr (c : Dev nD) : Buf (Elt Ideal) ((c : Thread nD τ).loc main_v0_0) := fun _ => absDiffSum (parr m c) (yarr m c)
/-- The second output array after the run: the whole squared-mean sum at every entry. -/
def secondArr (c : Dev nD) : Buf (Elt Ideal) ((c : Thread nD τ).loc main_v0_1) := fun _ => meanAbsSqSum (parr m c) sixteenth

/-- The one write-back of the first total, at the last point, writes the whole sum: block (0, 0) of an [8, 128] array
    read through zero offsets is the array. -/
theorem flushed_first (c : Dev nD) (t : Fin cfg0.N) (hf : (cfg0.win 2).flush t = true) :
    (dats m 0 c).flushed 2 t = ((cfg0.win 2).blk t).view.read (Elt Ideal) (firstArr m c) := by
  have hN : cfg0.N = 32 := N_0
  have h31 : t.val = 31 := by have := (flush0_2 t).mp hf; have := t.isLt; omega
  obtain rfl : t = last := Fin.ext h31
  show (cfg0.win 2).cut (grid0.coords last) ((dats m 0 c).after 2 last) = _
  rw [after0_2]
  have e : (outsAt0 m c last.val last.isLt).1 = firstArr m c := funext fun j => (totals_last m c last.isLt j).1
  rw [e]
  have hz' : (fun a => win0_2.index last a * main_v0_0.ty.shape.size a) = fun _ => 0 := funext fun a => by fin_cases a <;> decide +kernel
  exact (Memref.read_access_unit_zero (Elt Ideal) main_v0_0 hz' (fun a => by rw [congrFun hz' a]; simp) (firstArr m c)).symm

/-- Likewise the second total. -/
theorem flushed_second (c : Dev nD) (t : Fin cfg0.N) (hf : (cfg0.win 3).flush t = true) :
    (dats m 0 c).flushed 3 t = ((cfg0.win 3).blk t).view.read (Elt Ideal) (secondArr m c) := by
  have hN : cfg0.N = 32 := N_0
  have h31 : t.val = 31 := by have := (flush0_3 t).mp hf; have := t.isLt; omega
  obtain rfl : t = last := Fin.ext h31
  show (cfg0.win 3).cut (grid0.coords last) ((dats m 0 c).after 3 last) = _
  rw [after0_3]
  have e : (outsAt0 m c last.val last.isLt).2 = secondArr m c := funext fun j => (totals_last m c last.isLt j).2
  rw [e]
  have hz' : (fun a => win0_3.index last a * main_v0_1.ty.shape.size a) = fun _ => 0 := funext fun a => by fin_cases a <;> decide +kernel
  exact (Memref.read_access_unit_zero (Elt Ideal) main_v0_1 hz' (fun a => by rw [congrFun hz' a]; simp) (secondArr m c)).symm

/-- The last point's block is the whole [8, 128] array, so the first output array ends at the whole sum. -/
theorem final_first (c : Dev nD) : (dats m 0 c).arrAt 2 cfg0.N = firstArr m c :=
  (dats m 0 c).arrAt_eq_of_cover 2 (firstArr m c) (flushed_first m c) fun i =>
    ⟨last, (flush0_2 last).mpr rfl, by
      show i ∈ ((View.whole main_v0_0).slice (win0_2.rect last)).set
      rw [View.set_slice_whole, Rect.mem_set_unit]
      intro a
      have h0 : (i 0 : Nat) < 8 := (i 0).isLt
      have h1 : (i 1 : Nat) < 128 := (i 1).isLt
      match a with
      | ⟨0, _⟩ =>
        show win0_2.index last 0 * win0_2.size 0 ≤ (i 0 : Nat) ∧ (i 0 : Nat) < win0_2.index last 0 * win0_2.size 0 + win0_2.xsize (grid0.coords last) 0
        rw [show win0_2.index last 0 * win0_2.size 0 = 0 from by decide +kernel, show win0_2.xsize (grid0.coords last) 0 = 8 from by decide +kernel]; omega
      | ⟨1, _⟩ =>
        show win0_2.index last 1 * win0_2.size 1 ≤ (i 1 : Nat) ∧ (i 1 : Nat) < win0_2.index last 1 * win0_2.size 1 + win0_2.xsize (grid0.coords last) 1
        rw [show win0_2.index last 1 * win0_2.size 1 = 0 from by decide +kernel, show win0_2.xsize (grid0.coords last) 1 = 128 from by decide +kernel]; omega⟩

/-- And the second output array at the whole squared-mean sum. -/
theorem final_second (c : Dev nD) : (dats m 0 c).arrAt 3 cfg0.N = secondArr m c :=
  (dats m 0 c).arrAt_eq_of_cover 3 (secondArr m c) (flushed_second m c) fun i =>
    ⟨last, (flush0_3 last).mpr rfl, by
      show i ∈ ((View.whole main_v0_1).slice (win0_3.rect last)).set
      rw [View.set_slice_whole, Rect.mem_set_unit]
      intro a
      have h0 : (i 0 : Nat) < 8 := (i 0).isLt
      have h1 : (i 1 : Nat) < 128 := (i 1).isLt
      match a with
      | ⟨0, _⟩ =>
        show win0_3.index last 0 * win0_3.size 0 ≤ (i 0 : Nat) ∧ (i 0 : Nat) < win0_3.index last 0 * win0_3.size 0 + win0_3.xsize (grid0.coords last) 0
        rw [show win0_3.index last 0 * win0_3.size 0 = 0 from by decide +kernel, show win0_3.xsize (grid0.coords last) 0 = 8 from by decide +kernel]; omega
      | ⟨1, _⟩ =>
        show win0_3.index last 1 * win0_3.size 1 ≤ (i 1 : Nat) ∧ (i 1 : Nat) < win0_3.index last 1 * win0_3.size 1 + win0_3.xsize (grid0.coords last) 1
        rw [show win0_3.index last 1 * win0_3.size 1 = 0 from by decide +kernel, show win0_3.xsize (grid0.coords last) 1 = 128 from by decide +kernel]; omega⟩

/-- The scalar the host operations after the call leave: `score S₁ S₂` of the region-entry arrays. -/
theorem result_eq (c : Dev nD) :
    Pipeline.afterTail₀ cfgs (dats m) 0 (V0 m) [hostOps1] c main_v8
      = score (absDiffSum (parr m c) (yarr m c)) (meanAbsSqSum (parr m c) sixteenth) := by
  unfold Pipeline.afterTail₀
  show StableHlo.after hostOps1 _ (Proc.devRef .tc main_v8) = _
  after_results
  rw [show Pipeline.withArrays (cfgs 0).spec c (V0 m c) (fun w => (dats m 0 c).arrAt w (cfgs 0).N) (Proc.tc.devRef main_v0_0)
        = firstArr m c from (Pipeline.withArrays_arr spec0 launch0.win.arr_inj c _ _ 2).trans (final_first m c),
    show Pipeline.withArrays (cfgs 0).spec c (V0 m c) (fun w => (dats m 0 c).arrAt w (cfgs 0).N) (Proc.tc.devRef main_v0_1)
        = secondArr m c from (Pipeline.withArrays_arr spec0 launch0.win.arr_inj c _ _ 3).trans (final_second m c)]
  rfl

/-- **The kernel's run, read**: every weakly fair execution ends with the result at `score S₁ S₂` of the argument arrays
    and the arguments unchanged. -/
theorem run : θ_run defs (onTc (τ := τ) (main (F := Ideal))) ⟨m, fun _ => 0, ρ⟩ fun r => ∀ c : Dev nD,
      r.2.mem ((c.tc : Thread nD τ).loc main_v8)
        = score (absDiffSum (m ((c.tc : Thread nD τ).loc main_arg0)) (m ((c.tc : Thread nD τ).loc main_arg1)))
            (meanAbsSqSum (m ((c.tc : Thread nD τ).loc main_arg0)) sixteenth)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v8 (by decide)).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Crps.KernelValue

end
-- ==== Proof.lean ====
/-
  The certificate: a streaming ensemble score, kernel against reference, over the extended reals.

  From predictions p [16, 8, 512, 512] and targets y [8, 512, 512] both programs compute
      S₁ / 2²⁵ − (S₂ / 2²¹) / 512,   S₁ = Σ |p − y|,   S₂ = Σ_{b,h,w} ((Σ_m |p|) / 16)².
  The reference takes the sums whole.  The kernel walks 32 grid points, each handling one batch entry and 128 of the 512
  rows, and keeps S₁ and S₂ as running totals zeroed at the first point; it scales by the float 1/16 where the reference
  divides by 16.  The two agree because every (batch, row) pair lies in exactly one point's block, addition of
  extended reals is commutative and associative, and 1/16 is an exact float.  No finiteness of the inputs is used.

  Frames: the two kernel programs' are the generated ones, the reference's is its generated run with the result
  dropped.  The idealization rewrote nothing, so `preserves` is trivial.
-/
import proofs.«137160_j14645838479695_1_alg».proof.Defs
import proofs.«137160_j14645838479695_1_alg».proof.Proof.Gen.Kernel
import proofs.«137160_j14645838479695_1_alg».proof.Proof.Gen.Kernel.Skeleton
import proofs.«137160_j14645838479695_1_alg».proof.Proof.Gen.Kernel.Launch
import proofs.«137160_j14645838479695_1_alg».proof.Proof.Gen.Kernel.Points
import proofs.«137160_j14645838479695_1_alg».proof.Proof.Gen.Kernel.Frame
import proofs.«137160_j14645838479695_1_alg».proof.Proof.Gen.KernelIdeal
import proofs.«137160_j14645838479695_1_alg».proof.Proof.Gen.KernelIdeal.Skeleton
import proofs.«137160_j14645838479695_1_alg».proof.Proof.Gen.KernelIdeal.Launch
import proofs.«137160_j14645838479695_1_alg».proof.Proof.Gen.KernelIdeal.Points
import proofs.«137160_j14645838479695_1_alg».proof.Proof.Gen.KernelIdeal.Frame
import proofs.«137160_j14645838479695_1_alg».proof.Proof.Gen.ReferenceIdeal
import proofs.«137160_j14645838479695_1_alg».proof.Proof.Gen.ReferenceIdeal.Run
import proofs.«137160_j14645838479695_1_alg».proof.Proof.Gen.ReferenceIdeal.Read
import proofs.«137160_j14645838479695_1_alg».proof.Proof.Gen.Pre_finite_inputs
import proofs.«137160_j14645838479695_1_alg».proof.Proof.RefSide
import proofs.«137160_j14645838479695_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at `score S₁ S₂` of arguments that agree: the kernel by its running totals, the reference by its
    whole sums. -/
theorem algebraic : Cert.algebraic_KernelIdeal_ReferenceIdeal := by
  intro m ρ m' ρ' _ hagree
  refine ⟨_, Cert.Crps.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v14_eq _ _).trans (Cert.Crps.RefSide.result_eq _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
